-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096x4096 : Shape := ⟨2, ![4096, 4096]⟩
abbrev S1 : Shape := ⟨1, ![1]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S1 : S_.BroadcastsInDim S1 (![] : Fin 0 → Fin S1.rank)
  reducesTo_S1_S_d0 : S1.ReducesTo [0] S_

variable [Facts]

def fn {F : FTy → Type} [FloatOps F] (main_arg0 : FVec F S4096x256 .f32) (main_arg1 : FVec F S4096x4096 .f32) (main_arg2 : FVec F S1 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Kernel.lean ====
abbrev S4096x256 : Shape := ⟨2, ![4096, 256]⟩
abbrev S4096x4096 : Shape := ⟨2, ![4096, 4096]⟩
abbrev S1 : Shape := ⟨1, ![1]⟩
abbrev S1x1 : Shape := ⟨2, ![1, 1]⟩
abbrev S512x4096 : Shape := ⟨2, ![512, 4096]⟩
abbrev S512x256 : Shape := ⟨2, ![512, 256]⟩

abbrev nBuf : Space → Nat
  | .hbm => 5
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S1, .f32⟩
  | .hbm, ⟨3, _⟩ => ⟨S1x1, .f32⟩
  | .hbm, ⟨4, _⟩ => ⟨S4096x256, .f32⟩
  | .local _ .vmem, ⟨0, _⟩ => ⟨S1x1, .f32⟩
  | .local _ .vmem, ⟨1, _⟩ => ⟨S512x4096, .f32⟩
  | .local _ .vmem, ⟨2, _⟩ => ⟨S512x4096, .f32⟩
  | .local _ .vmem, ⟨3, _⟩ => ⟨S4096x256, .f32⟩
  | .local _ .vmem, ⟨4, _⟩ => ⟨S512x256, .f32⟩
  | .local _ .vmem, ⟨5, _⟩ => ⟨S512x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1_S1x1 : S1.ShapeCasts S1x1
  inb_S512x4096_S512x4096_0_0 : ∀ a, (![0, 0] : Fin 2 → Nat) a + S512x4096.size a ≤ S512x4096.size a
  h_S512x4096 : 0 < S512x4096.numel
  inb_S4096x256_S4096x256_0_0 : ∀ a, (![0, 0] : Fin 2 → Nat) a + S4096x256.size a ≤ S4096x256.size a
  h_S4096x256 : 0 < S4096x256.numel
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S512x256_S512x256_0_0 : ∀ a, (![0, 0] : Fin 2 → Nat) a + S512x256.size a ≤ S512x256.size a
  h_S512x256 : 0 < S512x256.numel
  dot_S512x4096_S4096x256_S512x256_1_0_0_1_n_n_wf : DotDims.WF S512x4096 S4096x256 S512x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1.size a ≤ S1x1.size a
  hwx0_0 : ∀ i : grid0.Coords, EltTy.bits .f32 = 32 ∨ (Rect.block (s := S1x1) S1x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .f32 = 32 ∨ (Rect.block (s := S4096x4096) S512x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x256.size a ≤ S4096x256.size a
  hwx0_2 : ∀ i : grid0.Coords, EltTy.bits .f32 = 32 ∨ (Rect.block (s := S4096x256) S4096x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S4096x256.size a
  hwx0_3 : ∀ i : grid0.Coords, EltTy.bits .f32 = 32 ∨ (Rect.block (s := S4096x256) S512x256.size (cc0_transform_3 i) (hinb0_3 i)).WholeWords (EltTy.packing .f32)

variable [Facts₀]

def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf

abbrev win0_0 : Pipeline.Window sig grid0 :=
  Pipeline.Window.ofSpec (Memref.whole main_v0) S1x1.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S4096x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x256 : Shape := ⟨2, ![4096, 256]⟩
abbrev S4096x4096 : Shape := ⟨2, ![4096, 4096]⟩
abbrev S1 : Shape := ⟨1, ![1]⟩
abbrev S_ : Shape := ⟨0, ![]⟩
abbrev S1x1 : Shape := ⟨2, ![1, 1]⟩

abbrev nBuf : Space → Nat
  | .hbm => 11
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S1, .f32⟩
  | .hbm, ⟨3, _⟩ => ⟨S4096x256, .f32⟩
  | .hbm, ⟨4, _⟩ => ⟨S_, .f32⟩
  | .hbm, ⟨5, _⟩ => ⟨S4096x256, .f32⟩
  | .hbm, ⟨6, _⟩ => ⟨S4096x256, .i1⟩
  | .hbm, ⟨7, _⟩ => ⟨S1x1, .f32⟩
  | .hbm, ⟨8, _⟩ => ⟨S4096x256, .f32⟩
  | .hbm, ⟨9, _⟩ => ⟨S4096x256, .f32⟩
  | .hbm, ⟨10, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  bcast_S_S4096x256 : S_.BroadcastsInDim S4096x256 (![] : Fin 0 → Fin S4096x256.rank)
  bcast_S1_S1x1_1 : S1.BroadcastsInDim S1x1 (![1] : Fin 1 → Fin S1x1.rank)
  bcast_S1x1_S4096x256_0_1 : S1x1.BroadcastsInDim S4096x256 (![0, 1] : Fin 2 → Fin S4096x256.rank)
  dot_S4096x4096_S4096x256_S4096x256_1_0_0_1_n_n_wf : DotDims.WF S4096x4096 S4096x256 S4096x256 [1] [0] [0] [1] [] []

variable [Facts₀]

def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf

class Facts : Prop extends Facts₀ where

variable [Facts]
-- ==== Proof.NeighborPrelu.lean ====
/-
  The function both programs compute, index by index, on the extended reals.

  A graph of 4096 nodes carries 256 features per node (`seq`, [4096, 256]) and a dense averaging matrix
  (`adj`, [4096, 4096]).  The layer first averages each feature over a node's neighbours,

      y(r, c) = ∑ k, adj(r, k) · seq(k, c)          (row `r` of `adj` against column `c` of `seq`),

  and then applies the parametric rectifier with the one learned slope `w`:

      out(r, c) = y(r, c)        if y(r, c) ≥ 0,
                  w · y(r, c)    otherwise.

  Nothing here is specific to either program: the sum is a plain finite sum of products of extended reals, and
  the rectifier is spelt with the comparison and the selection both programs print, so that neither side has
  to decide what `≥ 0` means at an infinity or where a sum `+∞ + -∞` falls: both sides read the SAME term.
-/
import Idealize.ShloMosaic.PureOps.Ideal
import Idealize.ShloMosaic.Lib.ValueIdx

noncomputable section

open scoped BigOperators

namespace Cert.NeighborPrelu

open Idealize.ShloMosaic Idealize.ShloMosaic.ValueIdx

/-- The neighbourhood average of feature `c` at node `r`: row `r` of the averaging matrix against column `c` of
    the features, a sum over the 4096 nodes. -/
def nbr (seq : (⟨2, ![4096, 256]⟩ : Shape).Idx → EReal) (adj : (⟨2, ![4096, 4096]⟩ : Shape).Idx → EReal)
    (r : Fin 4096) (c : Fin 256) : EReal :=
  ∑ k : Fin 4096, adj (ix2 r k) * seq (ix2 k c)

/-- The parametric rectifier of one extended real `y` with slope `w`: `y` where the ordered comparison `y ≥ 0`
    holds, `w · y` where it does not. -/
def prelu (w y : EReal) : EReal :=
  Scalar.select (FloatOps.cmpf (F := Ideal) (φ := .f32) .oge y (FloatOps.ofBits (F := Ideal) .f32 0x00000000#32)) y (w * y)

/-- The layer's output at node `i 0`, feature `i 1`: the rectifier, with the one slope, of the neighbourhood average. -/
def layer (seq : (⟨2, ![4096, 256]⟩ : Shape).Idx → EReal) (adj : (⟨2, ![4096, 4096]⟩ : Shape).Idx → EReal)
    (w : (⟨1, ![1]⟩ : Shape).Idx → EReal) : (⟨2, ![4096, 256]⟩ : Shape).Idx → EReal :=
  fun i => prelu (w (ix1 0)) (nbr seq adj (i 0) (i 1))

end Cert.NeighborPrelu

end
-- ==== Proof.ReferenceValue.lean ====
/-
  The reference, read at one index, is the layer of `NeighborPrelu`.

  The reference computes the whole product `adj · seq` by one contraction over the node axis, compares it with
  a zero spread over the array, multiplies it by the slope spread over the array (the one-entry vector first
  made a [1, 1] array, then spread to [4096, 256]), and selects.  At output index `i` the contraction reads
  `adj` at (i 0, k) and `seq` at (k, i 1); the spread slope reads the vector at its only index.
-/
import proofs.«145449_g90752658964618_cont_sun_m_820_16_alg».proof.Proof.Gen.ReferenceIdeal.Read
import proofs.«145449_g90752658964618_cont_sun_m_820_16_alg».proof.Proof.NeighborPrelu

noncomputable section

open scoped BigOperators

namespace Cert.ReferenceIdeal.RefValue

open Cert.ReferenceIdeal Cert.ReferenceIdeal.Read Idealize.ShloMosaic Idealize.ShloMosaic.ValueIdx Cert.NeighborPrelu

/-- The reference's last stage is the layer, index by index. -/
theorem ref_eq_layer (x0 : (⟨S4096x256, .f32⟩ : BufTy).Contents (Elt Ideal)) (x1 : (⟨S4096x4096, .f32⟩ : BufTy).Contents (Elt Ideal))
    (x2 : (⟨S1, .f32⟩ : BufTy).Contents (Elt Ideal)) :
    val_main_v6 (F := Ideal) x0 x1 x2 = layer x0 x1 x2 := by
  funext i
  have el : ∀ k : Fin 4096, lidx_main_v0 i k = ix2 (i 0) k := fun k => funext fun a => by
    match a with
    | ⟨0, _⟩ => rfl
    | ⟨1, _⟩ => rfl
  have er : ∀ k : Fin 4096, ridx_main_v0 i k = ix2 k (i 1) := fun k => funext fun a => by
    match a with
    | ⟨0, _⟩ => rfl
    | ⟨1, _⟩ => rfl
  have ew : idx_main_v3 (idx_main_v4 i) = ix1 (0 : Fin 1) := funext fun a => by
    match a with
    | ⟨0, _⟩ => rfl
  rw [val_main_v6_apply, val_main_v2_apply, val_main_v5_apply, val_main_v4_apply, val_main_v3_apply,
    val_main_v1_apply, val_main_cst_apply, val_main_v0_apply]
  simp only [el, er, ew]
  rfl

end Cert.ReferenceIdeal.RefValue

end
-- ==== Proof.BodyValue.lean ====
/-
  The kernel body's stored value, read at one entry of its [512, 256] output block.

  At a grid point the body holds a 512-row block of the averaging matrix, all 4096 rows of the features, and
  the slope as a [1, 1] block.  It multiplies the first two into a zero accumulator — so entry (p, q) of the
  product is the sum over k of block(p, k) · features(k, q), the accumulator contributing the zero it holds —
  and applies the parametric rectifier entry by entry with the slope read at (0, 0).
-/
import proofs.«145449_g90752658964618_cont_sun_m_820_16_alg».proof.Proof.Gen.KernelIdeal.Skeleton
import proofs.«145449_g90752658964618_cont_sun_m_820_16_alg».proof.Proof.NeighborPrelu
import Idealize.ShloMosaic.Lib.ValueIdx
import Idealize.ShloMosaic.PureOps.Ideal.Laws

noncomputable section

open scoped BigOperators

namespace Cert.KernelIdeal.BodyValue

open Cert.KernelIdeal Cert.KernelIdeal.Gen Idealize.ShloMosaic Idealize.ShloMosaic.ValueIdx Cert.NeighborPrelu

/-! ## The operand indices of the block product -/

/-- The left operand's row is the output's row. -/
theorem lhs_blk_0 (i : S512x256.Idx) (q : dot_S512x4096_S4096x256_S512x256_1_0_0_1_n_n.contr.Idx) :
    (dot_S512x4096_S4096x256_S512x256_1_0_0_1_n_n.lhsIdx i q 0).val = (i 0).val := by
  unfold DotDims.lhsIdx
  rw [dif_neg (show ¬(0 : Fin S512x4096.rank) ∈ dot_S512x4096_S4096x256_S512x256_1_0_0_1_n_n.lhsBatch by decide), dif_pos (show (0 : Fin S512x4096.rank) ∈ dot_S512x4096_S4096x256_S512x256_1_0_0_1_n_n.lhsNonContracting by decide)]
  rfl
/-- The left operand's column is the contraction index. -/
theorem lhs_blk_1 (i : S512x256.Idx) (q : dot_S512x4096_S4096x256_S512x256_1_0_0_1_n_n.contr.Idx) :
    (dot_S512x4096_S4096x256_S512x256_1_0_0_1_n_n.lhsIdx i q 1).val = (q ⟨0, by decide⟩).val :=
  dot_S512x4096_S4096x256_S512x256_1_0_0_1_n_n.lhsIdx_val_of_single rfl i q
/-- The right operand's row is the contraction index. -/
theorem rhs_blk_0 (i : S512x256.Idx) (q : dot_S512x4096_S4096x256_S512x256_1_0_0_1_n_n.contr.Idx) :
    (dot_S512x4096_S4096x256_S512x256_1_0_0_1_n_n.rhsIdx i q 0).val = (q ⟨0, by decide⟩).val :=
  dot_S512x4096_S4096x256_S512x256_1_0_0_1_n_n.rhsIdx_val_of_single rfl i q
/-- The right operand's column is the output's column. -/
theorem rhs_blk_1 (i : S512x256.Idx) (q : dot_S512x4096_S4096x256_S512x256_1_0_0_1_n_n.contr.Idx) :
    (dot_S512x4096_S4096x256_S512x256_1_0_0_1_n_n.rhsIdx i q 1).val = (i 1).val := by
  unfold DotDims.rhsIdx
  rw [dif_neg (show ¬(1 : Fin S4096x256.rank) ∈ dot_S512x4096_S4096x256_S512x256_1_0_0_1_n_n.rhsBatch by decide), dif_pos (show (1 : Fin S4096x256.rank) ∈ dot_S512x4096_S4096x256_S512x256_1_0_0_1_n_n.rhsNonContracting by decide)]
  rfl

/-- The block product into the zero accumulator, at entry (p, q): the sum over the 4096 nodes. -/
theorem blockProduct_apply (a : FVec Ideal S512x4096 .f32) (s : FVec Ideal S4096x256 .f32) (p : Fin 512) (q : Fin 256) :
    matmul (F := Ideal) dot_S512x4096_S4096x256_S512x256_1_0_0_1_n_n none a s (constant (F := Ideal) S512x256 .f32 0x00000000#32) (ix2 p q)
      = ∑ k : Fin 4096, a (ix2 p k) * s (ix2 k q) := by
  simp only [matmul]
  rw [Ideal.matmul_constant_zero_apply, ← Equiv.sum_comp (ValueIdx.contrEquiv1 dot_S512x4096_S4096x256_S512x256_1_0_0_1_n_n 4096 rfl rfl).symm]
  refine Finset.sum_congr rfl fun k _ => ?_
  have hk := ValueIdx.contrEquiv1_symm_val dot_S512x4096_S4096x256_S512x256_1_0_0_1_n_n 4096 rfl rfl k
  have el : dot_S512x4096_S4096x256_S512x256_1_0_0_1_n_n.lhsIdx (ix2 p q) ((ValueIdx.contrEquiv1 dot_S512x4096_S4096x256_S512x256_1_0_0_1_n_n 4096 rfl rfl).symm k) = ix2 p k := funext fun d => Fin.ext (by
    match d with
    | ⟨0, _⟩ => exact lhs_blk_0 _ _
    | ⟨1, _⟩ => exact (lhs_blk_1 _ _).trans hk)
  have er : dot_S512x4096_S4096x256_S512x256_1_0_0_1_n_n.rhsIdx (ix2 p q) ((ValueIdx.contrEquiv1 dot_S512x4096_S4096x256_S512x256_1_0_0_1_n_n 4096 rfl rfl).symm k) = ix2 k q := funext fun d => Fin.ext (by
    match d with
    | ⟨0, _⟩ => exact (rhs_blk_0 _ _).trans hk
    | ⟨1, _⟩ => exact rhs_blk_1 _ _)
  rw [el, er]

/-! ## The stored value -/

/-- Entry (p, q) of what the body stores: the rectifier, with the slope block's one entry, of the block product's
    entry. -/
theorem stored_apply (a : Vec Ideal S512x4096 .f32) (s : Vec Ideal S4096x256 .f32) (w : Vec Ideal S1x1 .f32) (p : Fin 512) (q : Fin 256) :
    k0_pay1 (F := Ideal) a s w (ix2 p q) = prelu (w (ix2 0 0)) (∑ k : Fin 4096, a (ix2 p k) * s (ix2 k q)) := by
  unfold k0_pay1
  rw [select_apply, cmpf_apply, mulf_apply, broadcast_apply, broadcast_apply, blockProduct_apply]
  have ew : extractAt ![0, 0] w inpos_S1x1_p0_0 = w (ix2 0 0) := congrArg w (funext fun d => by
    match d with
    | ⟨0, _⟩ => rfl
    | ⟨1, _⟩ => rfl)
  rw [ew]
  rfl

/-- The stored entry (p, q) is the layer at array index `i`, as soon as the three blocks hold what the layer reads
    there: the slope block the slope, row `p` of the matrix block row `i 0` of the averaging matrix, and column `q` of
    the feature block column `i 1` of the features. -/
theorem stored_eq_layer (w : Vec Ideal S1x1 .f32) (a : Vec Ideal S512x4096 .f32) (s : Vec Ideal S4096x256 .f32)
    (seq : S4096x256.Idx → EReal) (adj : S4096x4096.Idx → EReal) (slope : S1.Idx → EReal)
    (i : S4096x256.Idx) (p : Fin 512) (q : Fin 256)
    (hw : w (ix2 0 0) = slope (ix1 0))
    (ha : ∀ k : Fin 4096, a (ix2 p k) = adj (ix2 (i 0) k))
    (hs : ∀ k : Fin 4096, s (ix2 k q) = seq (ix2 k (i 1))) :
    k0_pay1 (F := Ideal) a s w (ix2 p q) = layer seq adj slope i := by
  rw [stored_apply, hw]
  show prelu _ _ = prelu _ (nbr seq adj (i 0) (i 1))
  unfold nbr
  exact congrArg (prelu _) (Finset.sum_congr rfl fun k _ => by rw [ha k, hs k])

end Cert.KernelIdeal.BodyValue

end
-- ==== Proof.ArrayValue.lean ====
/-
  From the blocks to the array: after the run the kernel's result array holds the layer of `NeighborPrelu`.

  The grid has 8 points.  Point `t` stages rows 512·t … 512·t + 511 of the averaging matrix (all 4096
  columns), the whole feature array, and the slope as a [1, 1] array (the one-entry slope vector re-laid by the
  host before the launch), and writes back rows 512·t … 512·t + 511 of the result (all 256 columns).  So row
  `p` of point `t`'s matrix block is row 512·t + p of the matrix, which is also the row of the result that
  entry (p, q) of the written block lands on; the 8 row blocks cover the 4096 rows, the block holding row `r`
  being number `r / 512`.
-/
import proofs.«145449_g90752658964618_cont_sun_m_820_16_alg».proof.Proof.Gen.KernelIdeal.Value
import proofs.«145449_g90752658964618_cont_sun_m_820_16_alg».proof.Proof.BodyValue
import Idealize.ShloMosaic.Lib.Pipeline.Value
import Idealize.ShloMosaic.Lib.StableHlo.Run

noncomputable section

namespace Cert.KernelIdeal.ArrayValue

open Cert.KernelIdeal Cert.KernelIdeal.Gen Idealize.ShloMosaic Idealize.ShloMosaic.TcCoe Idealize.SL.Sem
open Idealize.ShloMosaic.ValueIdx Cert.NeighborPrelu
open Idealize.ShloMosaic.Pipeline (Dat)

variable (m : (ℓ : Loc nD τ sig) → Buf (Elt Ideal) ℓ) (ρ : Dev nD → PrngReg)

theorem zeros : (![0, 0] : Fin 2 → Nat) = fun _ => 0 := funext fun a => by fin_cases a <;> rfl

/-! ## The slope as the region finds it -/

/-- The [1, 1] array the host makes of the slope vector holds, at its one index, the vector's one entry. -/
theorem slope_entry (c : Dev nD) :
    (V m c main_v0 : S1x1.Idx → EReal) (ix2 0 0) = (m ((c : Thread nD τ).loc main_arg2) : S1.Idx → EReal) (ix1 0) := by
  have e : (V m c main_v0 : S1x1.Idx → EReal) = shapeCast S1x1 (m ((c : Thread nD τ).loc main_arg2) : S1.Idx → EReal) shapeCasts_S1_S1x1 := by
    dsimp only [Gen.V, Gen.hostOps0]; after_results; rfl
  rw [e]
  exact shapeCast_apply _ _ _ _ rfl

/-! ## Where each window's block sits -/

/-- The printed index maps over the 8 points: the slope's and the features' blocks never move; the matrix block
    and the result block sit at the same row block, at most number 7, and at column block 0. -/
theorem idx_facts : ∀ t : Fin cfg0.N,
    win0_0.index t (0 : Fin 2) = 0 ∧ win0_0.index t (1 : Fin 2) = 0
    ∧ win0_1.index t (0 : Fin 2) = win0_3.index t (0 : Fin 2) ∧ win0_1.index t (1 : Fin 2) = 0
    ∧ win0_2.index t (0 : Fin 2) = 0 ∧ win0_2.index t (1 : Fin 2) = 0
    ∧ win0_3.index t (0 : Fin 2) ≤ 7 ∧ win0_3.index t (1 : Fin 2) = 0 :=
  (by decide +kernel : ∀ t : Fin grid0.N, _)

/-- Every one of the 8 row blocks of the result is some point's. -/
theorem idx_onto : ∀ b : Fin 8, ∃ t : Fin cfg0.N, win0_3.index t = ![b.val, 0] :=
  (by decide +kernel : ∀ b : Fin 8, ∃ t : Fin grid0.N, win0_3.index t = ![b.val, 0])

/-! ## What a point writes back -/

/-- Point `t` writes back block `t` of the layer of the argument arrays. -/
theorem flushed_eq (c : Dev nD) (t : Fin cfg0.N) :
    (dats m 0 c).flushed 3 t = ((cfg0.win 3).blk t).view.read (Elt Ideal)
      (layer (m ((c : Thread nD τ).loc main_arg0)) (m ((c : Thread nD τ).loc main_arg1)) (m ((c : Thread nD τ).loc main_arg2))) := by
  rw [Value.flushed3]
  unfold out0_3
  rw [View.canon_unit_zero zeros]
  simp only [View.ld_unit_zero (S := S512x4096) zeros, View.ld_unit_zero (S := S4096x256) zeros, View.ld_unit_zero (S := S1x1) zeros]
  obtain ⟨w0, w1, a0, a1, s0, s1, o0, o1⟩ := idx_facts t
  funext j
  obtain ⟨p, q, rfl⟩ : ∃ (p : Fin 512) (q : Fin 256), j = ix2 p q := ⟨j 0, j 1, eq_ix2 j⟩
  show k0_pay1 (F := Ideal) (iblk m c 1 t) (iblk m c 2 t) (iblk m c 0 t) (ix2 p q)
    = layer (m ((c : Thread nD τ).loc main_arg0)) (m ((c : Thread nD τ).loc main_arg1)) (m ((c : Thread nD τ).loc main_arg2)) (((cfg0.win 3).blk t).view.emb (ix2 p q))
  refine BodyValue.stored_eq_layer (iblk m c 0 t) (iblk m c 1 t) (iblk m c 2 t)
    (m ((c : Thread nD τ).loc main_arg0)) (m ((c : Thread nD τ).loc main_arg1)) (m ((c : Thread nD τ).loc main_arg2))
    (((cfg0.win 3).blk t).view.emb (ix2 p q)) p q ?_ ?_ ?_
  · show V m c main_v0 (((cfg0.win 0).blk t).view.emb (ix2 0 0)) = _
    have e : ((cfg0.win 0).blk t).view.emb (ix2 0 0) = ix2 0 0 := by
      funext d; apply Fin.ext
      match d with
      | ⟨0, _⟩ => show win0_0.index t (0 : Fin 2) * 1 + 1 * 0 = 0; omega
      | ⟨1, _⟩ => show win0_0.index t (1 : Fin 2) * 1 + 1 * 0 = 0; omega
    rw [e]
    exact slope_entry m c
  · intro k
    show V m c main_arg1 (((cfg0.win 1).blk t).view.emb (ix2 p k)) = _
    rw [V_main_arg1]
    refine congrArg _ ?_
    funext d; apply Fin.ext
    match d with
    | ⟨0, _⟩ => show win0_1.index t (0 : Fin 2) * 512 + 1 * p.val = win0_3.index t (0 : Fin 2) * 512 + 1 * p.val; omega
    | ⟨1, _⟩ => show win0_1.index t (1 : Fin 2) * 4096 + 1 * k.val = k.val; omega
  · intro k
    show V m c main_arg0 (((cfg0.win 2).blk t).view.emb (ix2 k q)) = _
    rw [V_main_arg0]
    refine congrArg _ ?_
    funext d; apply Fin.ext
    match d with
    | ⟨0, _⟩ => show win0_2.index t (0 : Fin 2) * 4096 + 1 * k.val = k.val; omega
    | ⟨1, _⟩ => show win0_2.index t (1 : Fin 2) * 256 + 1 * q.val = win0_3.index t (1 : Fin 2) * 256 + 1 * q.val; omega

/-! ## The blocks cover the array -/

/-- An index of the result is in point `t`'s block iff each coordinate is in the block's range on its axis. -/
theorem mem_blk (t : Fin cfg0.N) (i : S4096x256.Idx) :
    i ∈ ((cfg0.win 3).blk t).view.set ↔ ∀ a : Fin 2, win0_3.index t a * S512x256.size a ≤ (i a).val ∧ (i a).val < win0_3.index t a * S512x256.size a + S512x256.size a := by
  show i ∈ ((View.whole main_v1).slice (win0_3.rect t)).set ↔ _
  rw [View.set_slice_whole, Rect.mem_set_unit]
  exact Iff.rfl

/-- Row `r` of the result is written by the point whose row block is `r / 512`. -/
theorem cover (i : S4096x256.Idx) : ∃ t : Fin cfg0.N, (cfg0.win 3).flush t = true ∧ i ∈ ((cfg0.win 3).blk t).view.set := by
  have hi0 : (i 0).val < 4096 := (i 0).isLt
  have hi1 : (i 1).val < 256 := (i 1).isLt
  obtain ⟨t, ht⟩ := idx_onto ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 256 ≤ (i 1).val ∧ (i 1).val < win0_3.index t (1 : Fin 2) * 256 + 256; omega

/-! ## The array after the run -/

/-- The result array ends holding the layer of the argument arrays. -/
theorem final (c : Dev nD) : (dats m 0 c).arrAt 3 cfg0.N
    = layer (m ((c : Thread nD τ).loc main_arg0)) (m ((c : Thread nD τ).loc main_arg1)) (m ((c : Thread nD τ).loc main_arg2)) :=
  (dats m 0 c).arrAt_eq_of_cover 3 _ (fun t _ => flushed_eq m c t) cover

/-- The kernel's run: it terminates with the result array at the layer of the arguments and the arguments unchanged. -/
theorem run : θ_run defs (onTc (τ := τ) (main (F := Ideal))) ⟨m, fun _ => 0, ρ⟩ fun r => ∀ c : Dev nD,
      r.2.mem ((c : Thread nD τ).loc main_v1)
        = layer (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.ArrayValue

end
-- ==== Proof.lean ====
/-
  A graph layer: neighbourhood averaging followed by the parametric rectifier.

  With `seq` the [4096, 256] node features, `adj` the dense [4096, 4096] averaging matrix and `w` the one learned
  slope, both programs compute

      y(r, c) = ∑ k, adj(r, k) · seq(k, c),        out(r, c) = y(r, c) if y(r, c) ≥ 0, else w · y(r, c).

  The reference forms the whole product by one contraction and rectifies the whole array.  The kernel walks
  the rows of `adj` in 8 blocks of 512: at each block it multiplies the block against all of `seq` into a zero
  accumulator — the full sum over the 4096 nodes, so no partial sums are ever carried between blocks — rectifies
  the 512 × 256 result with the slope, and writes it to the same 512 rows of the output.  Entry (p, q) of block
  `t` is therefore the layer's value at row 512·t + p, column q, and the 8 blocks tile the 4096 rows.

  Over the extended reals the two sides are the same term entry by entry (the same finite sum of the same
  products in the same order of factors, the same comparison with zero, the same product with the slope), so no
  law of arithmetic is needed and the inputs' finiteness is never used.

  `NeighborPrelu` states the layer; `ReferenceValue` reads the reference at an index; `BodyValue` reads the
  kernel body's stored block at an entry; `ArrayValue` carries the blocks to the whole result array.  The three
  programs' termination and the integrity of their arguments are the generated frame runs; the idealized
  kernel is the kernel's own text read over the extended reals (no rewrite was applied), so that conjunct is
  trivial.
-/
import proofs.«145449_g90752658964618_cont_sun_m_820_16_alg».proof.Defs
import proofs.«145449_g90752658964618_cont_sun_m_820_16_alg».proof.Proof.Gen.Kernel
import proofs.«145449_g90752658964618_cont_sun_m_820_16_alg».proof.Proof.Gen.Kernel.Skeleton
import proofs.«145449_g90752658964618_cont_sun_m_820_16_alg».proof.Proof.Gen.Kernel.Launch
import proofs.«145449_g90752658964618_cont_sun_m_820_16_alg».proof.Proof.Gen.Kernel.Points
import proofs.«145449_g90752658964618_cont_sun_m_820_16_alg».proof.Proof.Gen.Kernel.Frame
import proofs.«145449_g90752658964618_cont_sun_m_820_16_alg».proof.Proof.Gen.KernelIdeal
import proofs.«145449_g90752658964618_cont_sun_m_820_16_alg».proof.Proof.Gen.KernelIdeal.Skeleton
import proofs.«145449_g90752658964618_cont_sun_m_820_16_alg».proof.Proof.Gen.KernelIdeal.Launch
import proofs.«145449_g90752658964618_cont_sun_m_820_16_alg».proof.Proof.Gen.KernelIdeal.Points
import proofs.«145449_g90752658964618_cont_sun_m_820_16_alg».proof.Proof.Gen.KernelIdeal.Frame
import proofs.«145449_g90752658964618_cont_sun_m_820_16_alg».proof.Proof.Gen.ReferenceIdeal
import proofs.«145449_g90752658964618_cont_sun_m_820_16_alg».proof.Proof.Gen.Pre_finite_inputs
import proofs.«145449_g90752658964618_cont_sun_m_820_16_alg».proof.Proof.Gen.KernelIdeal.Value
import proofs.«145449_g90752658964618_cont_sun_m_820_16_alg».proof.Proof.Gen.ReferenceIdeal.Run
import proofs.«145449_g90752658964618_cont_sun_m_820_16_alg».proof.Proof.Gen.ReferenceIdeal.Read
import proofs.«145449_g90752658964618_cont_sun_m_820_16_alg».proof.Proof.NeighborPrelu
import proofs.«145449_g90752658964618_cont_sun_m_820_16_alg».proof.Proof.ReferenceValue
import proofs.«145449_g90752658964618_cont_sun_m_820_16_alg».proof.Proof.BodyValue
import proofs.«145449_g90752658964618_cont_sun_m_820_16_alg».proof.Proof.ArrayValue
import Idealize.ShloMosaic.Adequacy
import Idealize.ShloMosaic.Init

noncomputable section

namespace Cert.Proof

open Idealize.ShloMosaic Idealize.ShloMosaic.TcCoe Idealize.SL.Sem

/-- The kernel as printed terminates and leaves its arguments as they were. -/
theorem frame_kernel [Cert.Kernel.Facts] [Cert.Pre_finite_inputs.Facts] : Cert.frame_Kernel :=
  fun m ρ _ => Cert.Kernel.Gen.frame m ρ

/-- So does the kernel read over the extended reals. -/
theorem frame_kernelIdeal [Cert.KernelIdeal.Facts] [Cert.Pre_finite_inputs.Facts] : Cert.frame_KernelIdeal :=
  fun m ρ _ => Cert.KernelIdeal.Gen.frame m ρ

/-- And the reference: its run, with the result dropped. -/
theorem frame_referenceIdeal [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- From arguments that agree, the kernel's result array and the reference's both end at the layer of those
    arguments: the kernel's by its blocks (`ArrayValue.run`), the reference's by its stages read at an index
    (`RefValue.ref_eq_layer`). -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefValue.ref_eq_layer,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
